-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S8192x3 : Shape := ⟨2, ![8192, 3]⟩
abbrev S64x8192 : Shape := ⟨2, ![64, 8192]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S64x8192 : S_.BroadcastsInDim S64x8192 (![] : Fin 0 → Fin S64x8192.rank)
  reducesTo_S64x8192_S_d0_1 : S64x8192.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S16384x3 .f32) (main_arg1 : FVec F S8192x3 .f32) (main_arg2 : FVec F S64x8192 .f32) (main_arg3 : FVec F S_ .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S16384x3 : Shape := ⟨2, ![16384, 3]⟩
abbrev S8192x3 : Shape := ⟨2, ![8192, 3]⟩
abbrev S64x8192 : Shape := ⟨2, ![64, 8192]⟩
abbrev S_ : Shape := ⟨0, ![]⟩
abbrev S3x8192 : Shape := ⟨2, ![3, 8192]⟩
abbrev S16384x64 : Shape := ⟨2, ![16384, 64]⟩
abbrev S1024x3 : Shape := ⟨2, ![1024, 3]⟩
abbrev S3x2048 : Shape := ⟨2, ![3, 2048]⟩
abbrev S1024x64 : Shape := ⟨2, ![1024, 64]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S64x2048 : Shape := ⟨2, ![64, 2048]⟩

abbrev nBuf : Space → Nat
  | .hbm => 11
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S8192x3, .f32⟩
  | .hbm, ⟨2, _⟩ => ⟨S64x8192, .f32⟩
  | .hbm, ⟨3, _⟩ => ⟨S_, .f32⟩
  | .hbm, ⟨4, _⟩ => ⟨S16384x3, .f32⟩
  | .hbm, ⟨5, _⟩ => ⟨S16384x3, .f32⟩
  | .hbm, ⟨6, _⟩ => ⟨S8192x3, .f32⟩
  | .hbm, ⟨7, _⟩ => ⟨S8192x3, .f32⟩
  | .hbm, ⟨8, _⟩ => ⟨S3x8192, .f32⟩
  | .hbm, ⟨9, _⟩ => ⟨S64x8192, .bf16⟩
  | .hbm, ⟨10, _⟩ => ⟨S16384x64, .f32⟩
  | .local _ .vmem, ⟨0, _⟩ => ⟨S1024x3, .f32⟩
  | .local _ .vmem, ⟨1, _⟩ => ⟨S1024x3, .f32⟩
  | .local _ .vmem, ⟨2, _⟩ => ⟨S3x2048, .f32⟩
  | .local _ .vmem, ⟨3, _⟩ => ⟨S3x2048, .f32⟩
  | .local _ .vmem, ⟨4, _⟩ => ⟨S64x8192, .bf16⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v28 : BitVec 32 := Scalar.muli arg1 c2048_i32
  v28
def k0_off1 (i : grid0.Coords) : Fin 2 → Nat :=
  let c0_9 : Index := 0#32
  let arg1 : BitVec 32 := BitVec.ofNat 32 (i 1).val
  let c2048_i32 : BitVec 32 := 2048#32
  let v28 : BitVec 32 := Scalar.muli arg1 c2048_i32
  let v29 : BitVec 32 := v28
  let v30 : Index := Scalar.indexCast v29
  ![0, v30.toNat]
def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_15 : BitVec 32 := 0#32
  let v41 : BitVec 1 := Scalar.cmpi .ne v40 c0_i32_15
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384x3 : S_.BroadcastsInDim S16384x3 (![] : Fin 0 → Fin S16384x3.rank)
  bcast_S_S8192x3 : S_.BroadcastsInDim S8192x3 (![] : Fin 0 → Fin S8192x3.rank)
  transposes_S8192x3_S3x8192_1_0 : S8192x3.Transposes [1, 0] S3x8192
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  h_S64x2048 : 0 < S64x2048.numel
  shapeCasts_S64x2048_S64x2048 : S64x2048.ShapeCasts S64x2048
  dot_S1024x3_S3x2048_S1024x2048_1_0_0_1_n_n_wf : DotDims.WF S1024x3 S3x2048 S1024x2048 [1] [0] [0] [1] [] []
  dot_S1024x2048_S64x2048_S1024x64_1_1_0_0_n_n_wf : DotDims.WF S1024x2048 S64x2048 S1024x64 [1] [1] [0] [0] [] []
  hrank0 : 0 < grid0.rank
  k0_mult1_dvd : ∀ i : grid0.Coords, 128 ∣ (k0_mult1 i).toNat
  k0_off1_inb : ∀ i : grid0.Coords, ∀ a, (k0_off1 i) a + S64x2048.size a ≤ S64x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x8192.size a
  hwx0_1 : ∀ i : grid0.Coords, EltTy.bits .f32 = 32 ∨ (Rect.block (s := S3x8192) S3x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S64x8192.size a
  hwx0_2 : ∀ i : grid0.Coords, EltTy.bits .bf16 = 32 ∨ (Rect.block (s := S64x8192) S64x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_v1) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x3 : Shape := ⟨2, ![16384, 3]⟩
abbrev S8192x3 : Shape := ⟨2, ![8192, 3]⟩
abbrev S64x8192 : Shape := ⟨2, ![64, 8192]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S3x8192 : Shape := ⟨2, ![3, 8192]⟩
abbrev S8192x64 : Shape := ⟨2, ![8192, 64]⟩
abbrev S16384x64 : Shape := ⟨2, ![16384, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S8192x3, .f32⟩
  | .hbm, ⟨2, _⟩ => ⟨S64x8192, .f32⟩
  | .hbm, ⟨3, _⟩ => ⟨S_, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x3, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S3x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S16384x8192, .f32⟩
  | .hbm, ⟨32, _⟩ => ⟨S8192x64, .f32⟩
  | .hbm, ⟨33, _⟩ => ⟨S16384x64, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  reducesTo_S8192x3_S8192_d1 : S8192x3.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x3_S3x8192_1_0 : S8192x3.Transposes [1, 0] S3x8192
  bcast_S_S16384x8192 : S_.BroadcastsInDim S16384x8192 (![] : Fin 0 → Fin S16384x8192.rank)
  transposes_S64x8192_S8192x64_1_0 : S64x8192.Transposes [1, 0] S8192x64
  dot_S16384x3_S3x8192_S16384x8192_1_0_0_1_n_n_wf : DotDims.WF S16384x3 S3x8192 S16384x8192 [1] [0] [0] [1] [] []
  dot_S16384x8192_S8192x64_S16384x64_1_0_0_1_n_n_wf : DotDims.WF S16384x8192 S8192x64 S16384x64 [1] [0] [0] [1] [] []

variable [Facts₀]

def dot_S16384x3_S3x8192_S16384x8192_1_0_0_1_n_n : DotDims S16384x3 S3x8192 S16384x8192 where
  lhsContracting := [1]
  rhsContracting := [0]
  lhsNonContracting := [0]
  rhsNonContracting := [1]
  lhsBatch := []
  rhsBatch := []
  wf := dot_S16384x3_S3x8192_S16384x8192_1_0_0_1_n_n_wf
def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf

class Facts : Prop extends Facts₀ where

variable [Facts]
-- ==== Proof.RbfSpec.lean ====
import Idealize.ShloMosaic.PureOps.Ideal
import Idealize.ShloMosaic.Lib.ValueIdx

/-! # A multiquadric radial-basis layer: the specification

For query points `a_p ∈ ℝ³` (16384 of them), centres `b_n ∈ ℝ³` (8192), a scale `e` and weights `w q n`
(64 × 8192) the layer's output is

  `out p q = ∑ n, √((e · dist(a_p, b_n))² + 1) · w q n`,   `dist(a, b) = √(max(‖a‖² + ‖b‖² − 2 a·b, 0))`.

The squared distance is computed by its expansion and clamped at zero. There are two ways to bring the scale in:
scale the DISTANCE (`phiDist`), or scale the POINTS before expanding (`phiPts`). Over the reals they agree:
`‖e a‖² + ‖e b‖² − 2 (e a)·(e b) = e² (‖a‖² + ‖b‖² − 2 a·b)`, a non-negative factor `e²` moves through the clamp, and
`(e √s)² = e² s` for `s ≥ 0` (`phiPts_eq_phiDist`). The sum over the 8192 centres may be taken in four consecutive
stretches of 2048 (`sum_stretches`).

`G` is the output as an array of extended reals, a function of the four argument arrays read as real numbers. -/

noncomputable section

namespace Cert.Rbf

open Idealize.ShloMosaic Idealize.ShloMosaic.ValueIdx
open scoped BigOperators

/-! ## Over the reals -/

/-- The squared distance `‖a − b‖²` by its expansion `‖a‖² + ‖b‖² − 2 a·b`. -/
def sqd (a b : Fin 3 → ℝ) : ℝ := (∑ d, a d * a d) + (∑ d, b d * b d) - 2 * ∑ d, a d * b d

/-- Scaling both points by `e` scales the expansion by `e²`. -/
theorem sqd_scale (e : ℝ) (a b : Fin 3 → ℝ) : sqd (fun d => a d * e) (fun d => b d * e) = e * e * sqd a b := by
  unfold sqd; simp only [Fin.sum_univ_three]; ring

/-- The multiquadric feature of two points at unit scale: `√(max(sqd a b, 0) + 1)`. -/
def phi0 (a b : Fin 3 → ℝ) : ℝ := Real.sqrt (max (sqd a b) 0 + 1)

/-- The multiquadric feature with the POINTS scaled first: `phi0 (e a) (e b)`. -/
def phiPts (e : ℝ) (a b : Fin 3 → ℝ) : ℝ := phi0 (fun d => a d * e) (fun d => b d * e)

/-- The multiquadric feature of the scaled DISTANCE: `√((e · √(max(sqd a b, 0)))² + 1)`. -/
def phiDist (e : ℝ) (a b : Fin 3 → ℝ) : ℝ :=
  Real.sqrt (e * Real.sqrt (max (sqd a b) 0) * (e * Real.sqrt (max (sqd a b) 0)) + 1)

/-- The two ways of bringing the scale in agree. -/
theorem phiPts_eq_phiDist (e : ℝ) (a b : Fin 3 → ℝ) : phiPts e a b = phiDist e a b := by
  unfold phiPts phi0 phiDist
  rw [sqd_scale]
  have h0 : (0 : ℝ) ≤ max (sqd a b) 0 := le_max_right _ _
  have h1 : max (e * e * sqd a b) 0 = e * e * max (sqd a b) 0 := by
    rw [mul_max_of_nonneg _ _ (mul_self_nonneg e), mul_zero]
  have h2 : e * Real.sqrt (max (sqd a b) 0) * (e * Real.sqrt (max (sqd a b) 0)) = e * e * max (sqd a b) 0 := by
    rw [mul_mul_mul_comm, Real.mul_self_sqrt h0]
  rw [h1, h2]

/-- The layer's output at query `p` and feature `q`. -/
def outR (e : ℝ) (xp : Fin 16384 → Fin 3 → ℝ) (x : Fin 8192 → Fin 3 → ℝ) (w : Fin 64 → Fin 8192 → ℝ)
    (p : Fin 16384) (q : Fin 64) : ℝ :=
  ∑ n : Fin 8192, phiDist e (xp p) (x n) * w q n

/-- Centre number `2048 j + k` of stretch `j`. -/
def centre (j : Fin 4) (k : Fin 2048) : Fin 8192 := ⟨2048 * j.val + k.val, by have := j.isLt; have := k.isLt; omega⟩

/-- A sum over the 8192 centres is the sum over the four stretches of the sums over each stretch. -/
theorem sum_stretches (f : Fin 8192 → ℝ) : ∑ n : Fin 8192, f n = ∑ j : Fin 4, ∑ k : Fin 2048, f (centre j k) := by
  rw [← Finset.sum_product', Finset.univ_product_univ]
  refine (Fintype.sum_equiv (finProdFinEquiv (m := 4) (n := 2048)) _ _ fun jk => ?_).symm
  refine congrArg f (Fin.ext ?_)
  simp [centre, finProdFinEquiv, Nat.add_comm]

/-! ## The output array over the extended reals -/

/-- Every entry of an array of extended reals is a real number. -/
def AllReal {s : Shape} (v : s.Idx → EReal) : Prop := ∀ i, ∃ r : ℝ, v i = (r : EReal)

theorem AllReal.coe_toReal {s : Shape} {v : s.Idx → EReal} (h : AllReal v) (i : s.Idx) :
    v i = ((v i).toReal : EReal) := by
  obtain ⟨r, hr⟩ := h i; rw [hr, EReal.toReal_coe]

abbrev SXp : Shape := ⟨2, ![16384, 3]⟩
abbrev SX : Shape := ⟨2, ![8192, 3]⟩
abbrev SW : Shape := ⟨2, ![64, 8192]⟩
abbrev SE : Shape := ⟨0, ![]⟩
abbrev SO : Shape := ⟨2, ![16384, 64]⟩

/-- The query points, the centres, the weights and the scale read as real numbers. -/
def xpR (Xp : SXp.Idx → EReal) (p : Fin 16384) (d : Fin 3) : ℝ := (Xp (ix2 p d)).toReal
def xR (X : SX.Idx → EReal) (n : Fin 8192) (d : Fin 3) : ℝ := (X (ix2 n d)).toReal
def wR (W : SW.Idx → EReal) (q : Fin 64) (n : Fin 8192) : ℝ := (W (ix2 q n)).toReal
def eR (E : SE.Idx → EReal) : ℝ := (E ix0).toReal

/-- THE OUTPUT ARRAY as a function of the four argument arrays. -/
def G (Xp : SXp.Idx → EReal) (X : SX.Idx → EReal) (W : SW.Idx → EReal) (E : SE.Idx → EReal) : SO.Idx → EReal :=
  fun i => ((outR (eR E) (xpR Xp) (xR X) (wR W) ⟨(i 0).val, (i 0).isLt⟩ ⟨(i 1).val, (i 1).isLt⟩ : ℝ) : EReal)

end Cert.Rbf

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.RbfPieces.lean ====
import proofs.«415032_j36129264894114_3_alg».proof.Proof.Gen.KernelIdeal.Frame
import Idealize.ShloMosaic.Lib.Pipeline.Value
import Idealize.ShloMosaic.Lib.Tactic

/-! # What one grid point leaves in the accumulator and in the output block

The grid is 16 row blocks of 1024 queries by 4 stretches of 2048 centres. At a point of stretch `j` the body adds, to a
1024 × 64 accumulator, the contribution of that stretch: a function (`k0_pay3`) of the point's block of scaled queries,
its block of scaled centres, the columns `2048 j …` of the weights (`wslice`) and the accumulator's contents. At the
first stretch the accumulator is first reset to zero (`k0_pay2`); at the last the accumulator, after the addition, is
also copied into the output block. So, whatever the staging buffers are:

* first stretch: the accumulator ends at `contribution(0-block)`;
* any later stretch: at `contribution(what it held)`;
* last stretch: the output block holds the same. -/

noncomputable section

open Idealize.ShloMosaic Idealize.ShloMosaic.TcCoe Idealize.SL.Sem

namespace Cert.Rbf.Pieces

open Cert.KernelIdeal Cert.KernelIdeal.Gen

variable {F : FTy → Type} [FloatOps F]

theorem hz : (![0, 0] : Fin 2 → Nat) = fun _ => 0 := funext fun a => by fin_cases a <;> rfl

/-- The stretch of the weights a grid point contracts with: the 2048 columns from `2048 j` of the whole 64 × 8192 array. -/
abbrev wslice (i : grid0.Coords) (x2 : Vec F S64x8192 .bf16) : Vec F S64x2048 .bf16 :=
  View.ld x2 (Rect.unit (k0_off1 i) S64x2048.size (k0_off1_inb i))

/-- One stretch's step: the accumulator `acc` plus the contribution of the blocks `x0`, `x1` and the weights' stretch. -/
abbrev step (i : grid0.Coords) (x0 : Vec F S1024x3 .f32) (x1 : Vec F S3x2048 .f32) (x2 : Vec F S64x8192 .bf16)
    (acc : Vec F S1024x64 .f32) : Vec F S1024x64 .f32 :=
  k0_pay1 (k0_pay3 x0 x1 (wslice i x2) acc)

/-- A later stretch that is not the last: the accumulator steps from what it held. -/
theorem sout_B (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S64x8192 .bf16) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : ¬cond0_1 i)
    (x0 : Vec F S1024x3 .f32) (x1 : Vec F S3x2048 .f32) (x2 : Vec F S64x8192 .bf16) (xs0 : Vec F S1024x64 .f32) :
    sout0_B_0 c i arg2 harg2 arg3 harg3 arg4 harg4 arg5 harg5 arg6 harg6 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S1024x3) hz, View.ld_unit_zero (S := S3x2048) hz, View.ld_unit_zero (S := S1024x64) hz]
  rfl

/-- The last stretch: the accumulator steps from what it held, -/
theorem sout_C (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S64x8192 .bf16) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i)
    (x0 : Vec F S1024x3 .f32) (x1 : Vec F S3x2048 .f32) (x2 : Vec F S64x8192 .bf16) (xs0 : Vec F S1024x64 .f32) :
    sout0_C_0 c i arg2 harg2 arg3 harg3 arg4 harg4 arg5 harg5 arg6 harg6 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S1024x3) hz, View.ld_unit_zero (S := S3x2048) hz, View.ld_unit_zero (S := S1024x64) hz]
  rfl

/-- and the output block is a copy of it. -/
theorem out_C (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S64x8192 .bf16) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i)
    (x0 : Vec F S1024x3 .f32) (x1 : Vec F S3x2048 .f32) (x2 : Vec F S64x8192 .bf16) (xs0 : Vec F S1024x64 .f32) :
    out0_C_3 c i arg2 harg2 arg3 harg3 arg4 harg4 arg5 harg5 arg6 harg6 hc0 hc1 x0 x1 x2 xs0 = step i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S1024x3) hz, View.ld_unit_zero (S := S3x2048) hz, View.ld_unit_zero (S := S1024x64) hz, View.readCov_unit_zero (S := S1024x64) _ hz]
  rfl

/-- The first stretch: the accumulator is reset to the zero block, then steps from it. -/
theorem sout_A (c : Dev nD) (i : grid0.Coords) (arg2 : Memref sig .tc .vmem S1024x3 .f32) (harg2 : arg2.IsWhole) (arg3 : Memref sig .tc .vmem S3x2048 .f32) (harg3 : arg3.IsWhole) (arg4 : Memref sig .tc .vmem S64x8192 .bf16) (harg4 : arg4.IsWhole) (arg5 : Memref sig .tc .vmem S1024x64 .f32) (harg5 : arg5.IsWhole) (arg6 : Memref sig .tc .vmem S1024x64 .f32) (harg6 : arg6.IsWhole) (hc0 : cond0_0 i) (hc1 : ¬cond0_1 i)
    (x0 : Vec F S1024x3 .f32) (x1 : Vec F S3x2048 .f32) (x2 : Vec F S64x8192 .bf16) :
    sout0_A_0 c i arg2 harg2 arg3 harg3 arg4 harg4 arg5 harg5 arg6 harg6 hc0 hc1 x0 x1 x2 = step i x0 x1 x2 k0_pay2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x64) hz]
  simp only [View.readAt_eq_ld, harg2.read_unread, harg3.read_unread, harg4.read_unread, harg5.read_unread, harg6.read_unread, View.ld_unit_zero (S := S1024x3) hz, View.ld_unit_zero (S := S3x2048) hz, View.ld_unit_zero (S := S1024x64) hz, View.readCov_unit_zero (S := S1024x64) _ hz]
  rfl

end Cert.Rbf.Pieces

end
-- ==== Proof.RbfBlocks.lean ====
import proofs.«415032_j36129264894114_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
import proofs.«415032_j36129264894114_3_alg».proof.Proof.RbfPieces

/-! # The blocks a grid point sees, as entries of the argument arrays

Before the grid runs, the host scales the query points and the centres by `e` (entry by entry), transposes the scaled centres
to 3 × 8192, and narrows the weights' float format (the identity on extended reals). Point `t` of the 16 × 4 grid
(row block `t / 4`, stretch `t % 4`) stages rows `1024 (t / 4) …` of the scaled queries, columns `2048 (t % 4) …` of the
transposed scaled centres, and the weights whole, of which the body reads the columns `2048 (t % 4) …`. -/

noncomputable section

open Idealize.ShloMosaic Idealize.ShloMosaic.TcCoe Idealize.SL.Sem Idealize.ShloMosaic.ValueIdx

namespace Cert.Rbf.Blocks

open Cert.KernelIdeal Cert.KernelIdeal.Gen

variable (m : (ℓ : Loc nD τ sig) → Buf (Elt Ideal) ℓ)

/-- The four argument arrays of core `c`, as arrays of extended reals. -/
abbrev aXp (c : Dev nD) : FVec Ideal S16384x3 .f32 := m ((c : Thread nD τ).loc main_arg0)
abbrev aX (c : Dev nD) : FVec Ideal S8192x3 .f32 := m ((c : Thread nD τ).loc main_arg1)
abbrev aW (c : Dev nD) : FVec Ideal S64x8192 .f32 := m ((c : Thread nD τ).loc main_arg2)
abbrev aE (c : Dev nD) : FVec Ideal S_ .f32 := m ((c : Thread nD τ).loc main_arg3)

theorem V_v1 (c : Dev nD) : V m c main_v1
    = (mulf (aXp m c) (broadcastInDim S16384x3 ![] bcast_S_S16384x3 (aE m c)) : FVec Ideal S16384x3 .f32) := by
  dsimp only [Gen.V, Gen.hostOps0]; after_results

theorem V_v4 (c : Dev nD) : V m c main_v4
    = (transpose S3x8192 [1, 0] (mulf (aX m c) (broadcastInDim S8192x3 ![] bcast_S_S8192x3 (aE m c)) : FVec Ideal S8192x3 .f32) transposes_S8192x3_S3x8192_1_0 : FVec Ideal S3x8192 .f32) := by
  dsimp only [Gen.V, Gen.hostOps0]; after_results

theorem V_v5 (c : Dev nD) : V m c main_v5
    = (truncf .bf16 (aW m c) bitsLt_bf16_f32 : FVec Ideal S64x8192 .bf16) := by
  dsimp only [Gen.V, Gen.hostOps0]; after_results

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = 0 ∧ win0_2.index t 1 = 0 := by decide +kernel
theorem idx3 : ∀ t : Fin grid0.N, win0_3.index t 0 = t.val / 4 ∧ win0_3.index t 1 = 0 := by decide +kernel

/-- The weights' stretch starts at column `2048 j` at a point of stretch `j`. -/
theorem off1 : ∀ t : Fin grid0.N, k0_off1 (grid0.coords t) = ![0, 2048 * (t.val % 4)] := by decide +kernel

/-- Point `t` (row block `t / 4`, stretch `t % 4`) sees the scaled query `1024 (t / 4) + p`. -/
theorem iblk0_apply (c : Dev nD) (t : Fin cfg0.N) (p : Fin 1024) (d : Fin 3) (P : Fin 16384) (hP : P.val = 1024 * (t.val / 4) + p.val) :
    (iblk m c 0 t : Vec Ideal S1024x3 .f32) (ix2 p d) = aXp m c (ix2 P d) * aE m c ix0 := by
  unfold iblk
  rw [View.read_apply]
  show V m c main_v1 _ = _
  rw [V_v1]
  show aXp m c _ * (broadcastInDim S16384x3 ![] bcast_S_S16384x3 (aE m c)) _ = _
  congr 1
  · refine congrArg (aXp m c) (funext fun a => Fin.ext ?_)
    match a with
    | ⟨0, _⟩ => show win0_0.index t 0 * 1024 + 1 * p.val = P.val; rw [(idx0 t).1, hP]; omega
    | ⟨1, _⟩ => show win0_0.index t 1 * 3 + 1 * d.val = d.val; rw [(idx0 t).2]; omega
  · exact broadcastInDim_apply _ bcast_S_S16384x3 (aE m c) _ ix0 (fun a => a.elim0)

/-- … and the scaled centre `2048 (t % 4) + k`, transposed. -/
theorem iblk1_apply (c : Dev nD) (t : Fin cfg0.N) (d : Fin 3) (k : Fin 2048) (N : Fin 8192) (hN : N.val = 2048 * (t.val % 4) + k.val) :
    (iblk m c 1 t : Vec Ideal S3x2048 .f32) (ix2 d k) = aX m c (ix2 N d) * aE m c ix0 := by
  unfold iblk
  rw [View.read_apply]
  show V m c main_v4 _ = _
  rw [V_v4]
  refine (transpose_apply [1, 0] _ transposes_S8192x3_S3x8192_1_0 _ (ix2 N d) (fun b => ?_)).trans ?_
  · match b with
    | ⟨0, _⟩ => show d.val = win0_1.index t 0 * 3 + 1 * d.val; rw [(idx1 t).1]; omega
    | ⟨1, _⟩ => show N.val = win0_1.index t 1 * 2048 + 1 * k.val; rw [(idx1 t).2, hN]; omega
  · show aX m c _ * (broadcastInDim S8192x3 ![] bcast_S_S8192x3 (aE m c)) _ = _
    congr 1
    exact broadcastInDim_apply _ bcast_S_S8192x3 (aE m c) _ ix0 (fun a => a.elim0)

/-- The weights are staged whole, unchanged by the change of float format. -/
theorem iblk2_apply (c : Dev nD) (t : Fin cfg0.N) (q : Fin 64) (n : Fin 8192) :
    (iblk m c 2 t : Vec Ideal S64x8192 .bf16) (ix2 q n) = aW m c (ix2 q n) := by
  unfold iblk
  rw [View.read_apply]
  show V m c main_v5 _ = _
  rw [V_v5]
  show aW m c _ = _
  refine congrArg (aW m c) (funext fun a => Fin.ext ?_)
  match a with
  | ⟨0, _⟩ => show win0_2.index t 0 * 64 + 1 * q.val = q.val; rw [(idx2 t).1]; omega
  | ⟨1, _⟩ => show win0_2.index t 1 * 8192 + 1 * n.val = n.val; rw [(idx2 t).2]; omega

/-- The stretch of the weights point `t` contracts with, at column `k`: column `2048 (t % 4) + k` of the array. -/
theorem wslice_apply (c : Dev nD) (t : Fin cfg0.N) (q : Fin 64) (k : Fin 2048) (N : Fin 8192) (hN : N.val = 2048 * (t.val % 4) + k.val) :
    (Pieces.wslice (grid0.coords t) (iblk m c 2 t) : Vec Ideal S64x2048 .bf16) (ix2 q k) = aW m c (ix2 q N) := by
  rw [← iblk2_apply m c t q N]
  show (iblk m c 2 t : Vec Ideal S64x8192 .bf16) _ = _
  refine congrArg (iblk m c 2 t : Vec Ideal S64x8192 .bf16) (funext fun a => Fin.ext ?_)
  match a with
  | ⟨0, _⟩ => show k0_off1 (grid0.coords t) 0 + 1 * q.val = q.val; rw [off1 t]; show 0 + 1 * q.val = q.val; omega
  | ⟨1, _⟩ => show k0_off1 (grid0.coords t) 1 + 1 * k.val = N.val; rw [off1 t, hN]; show 2048 * (t.val % 4) + 1 * k.val = _; omega

end Cert.Rbf.Blocks
end
-- ==== Proof.RbfPayload.lean ====
import proofs.«415032_j36129264894114_3_alg».proof.Proof.Gen.KernelIdeal.Skeleton
import proofs.«415032_j36129264894114_3_alg».proof.Proof.RbfSpec
import proofs.«415032_j36129264894114_3_alg».proof.Proof.LibRealSums
import Idealize.ShloMosaic.Lib.ValueLayout
import Idealize.ShloMosaic.Lib.ValueIdx
import Idealize.ShloMosaic.PureOps.Ideal.Laws

/-! # One grid step's arithmetic, entry by entry

A grid step holds a block of 1024 query points `a_p` (the rows of a `[1024, 3]` array), a stretch of 2048 centres
`b_k` (the columns of a `[3, 2048]` array), that stretch's weights `w q k` (a `[64, 2048]` array) and the
accumulator block (a `[1024, 64]` array). It returns, at the entry `(p, q)`,

  `acc p q + ∑ k, √(max(‖a_p‖² + ‖b_k‖² − 2 a_p·b_k, 0) + 1) · w q k`.

The squared norms are lane sums of the entrywise squares, kept as a column and as a row and spread over the
`[1024, 2048]` grid of pairs; the cross term is a product contracting the three coordinates; the clamp, the `+ 1`
and the square root act entry by entry; the last product contracts the 2048 centres of the stretch. Each of these
is read at explicit coordinates below, first over the extended reals with nothing assumed (`pay3_term`), then, for
real point blocks and real weights, as the coercion of ONE real sum of `phi0 a_p b_k · w q k` (`pay3_apply`): among
real numbers sums, products, differences and maxima stay real, and the square root's argument is at least one.
The accumulator's entry is left as it is.

The other two payloads are a same-shape cast (the identity) and the zero block. -/

noncomputable section

namespace Cert.Rbf.Payload

open Cert.KernelIdeal Cert.KernelIdeal.Gen Idealize.ShloMosaic Idealize.ShloMosaic.ValueIdx
open scoped BigOperators

/-! ## The literal words -/

theorem two_f32 : Ideal.ofBits .f32 0x40000000#32 = ((2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

/-! ## The two small payloads -/

theorem pay1_apply (v : FVec Ideal S1024x64 .f32) (i : S1024x64.Idx) : k0_pay1 (F := Ideal) v i = v i := by
  unfold k0_pay1
  exact congrFun (shapeCast_self v shapeCasts_S1024x64_S1024x64) i

theorem pay2_apply (i : S1024x64.Idx) : k0_pay2 (F := Ideal) i = 0 := by
  unfold k0_pay2
  refine (congrFun (shapeCast_self _ shapeCasts_S1024x64_S1024x64) i).trans ?_
  exact Ideal.ofBits_zero_f32

/-! ## The layout operations at explicit coordinates -/

/-- A column: an `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane sums -/

/-- The sum over the three coordinates of a row of a `[1024, 3]` array. -/
theorem rowSum_apply (x : FVec Ideal S1024x3 .f32) (p : Fin 1024) :
    multiReduction (F := Ideal) .add [1] S1024 x 0x00000000#32 reduces_S1024x3_S1024 (.inl rfl) rfl (ix1 p)
      = ∑ d : Fin 3, x (ix2 p d) := by
  refine (Ideal.multiReduction_add_single x 0x00000000#32 reduces_S1024x3_S1024 (.inl rfl) rfl (ix1 p)).trans ?_
  refine Finset.sum_congr rfl fun d _ => congrArg x ?_
  funext c
  apply Fin.ext
  rw [Shape.Reduces.lift_val]
  unfold Shape.Reduces.liftVal
  match c with
  | ⟨0, _⟩ => rfl
  | ⟨1, _⟩ => rfl

/-- The sum over the three coordinates of a column of a `[3, 2048]` array. -/
theorem colSum_apply (x : FVec Ideal S3x2048 .f32) (k : Fin 2048) :
    multiReduction (F := Ideal) .add [0] S2048 x 0x00000000#32 reduces_S3x2048_S2048 (.inl rfl) rfl (ix1 k)
      = ∑ d : Fin 3, x (ix2 d k) := by
  refine (Ideal.multiReduction_add_single x 0x00000000#32 reduces_S3x2048_S2048 (.inl rfl) rfl (ix1 k)).trans ?_
  refine Finset.sum_congr rfl fun d _ => congrArg x ?_
  funext c
  apply Fin.ext
  rw [Shape.Reduces.lift_val]
  unfold Shape.Reduces.liftVal
  match c with
  | ⟨0, _⟩ => rfl
  | ⟨1, _⟩ => rfl

/-! ## The two products

The first contracts the three coordinates: axis 1 of the `[1024, 3]` operand with axis 0 of the `[3, 2048]` operand.
The second contracts the 2048 centres of a stretch: axis 1 of the `[1024, 2048]` operand with axis 1 of the
`[64, 2048]` operand, so its right operand is read at `(q, k)`. -/

theorem lhs_cross_0 (i : S1024x2048.Idx) (q : dot_S1024x3_S3x2048_S1024x2048_1_0_0_1_n_n.contr.Idx) :
    (dot_S1024x3_S3x2048_S1024x2048_1_0_0_1_n_n.lhsIdx i q 0).val = (i 0).val := by
  unfold DotDims.lhsIdx
  rw [dif_neg (show ¬(0 : Fin S1024x3.rank) ∈ dot_S1024x3_S3x2048_S1024x2048_1_0_0_1_n_n.lhsBatch by decide), dif_pos (show (0 : Fin S1024x3.rank) ∈ dot_S1024x3_S3x2048_S1024x2048_1_0_0_1_n_n.lhsNonContracting by decide)]
  rfl
theorem lhs_cross_1 (i : S1024x2048.Idx) (q : dot_S1024x3_S3x2048_S1024x2048_1_0_0_1_n_n.contr.Idx) :
    (dot_S1024x3_S3x2048_S1024x2048_1_0_0_1_n_n.lhsIdx i q 1).val = (q ⟨0, by decide⟩).val :=
  dot_S1024x3_S3x2048_S1024x2048_1_0_0_1_n_n.lhsIdx_val_of_single rfl i q
theorem rhs_cross_0 (i : S1024x2048.Idx) (q : dot_S1024x3_S3x2048_S1024x2048_1_0_0_1_n_n.contr.Idx) :
    (dot_S1024x3_S3x2048_S1024x2048_1_0_0_1_n_n.rhsIdx i q 0).val = (q ⟨0, by decide⟩).val :=
  dot_S1024x3_S3x2048_S1024x2048_1_0_0_1_n_n.rhsIdx_val_of_single rfl i q
theorem rhs_cross_1 (i : S1024x2048.Idx) (q : dot_S1024x3_S3x2048_S1024x2048_1_0_0_1_n_n.contr.Idx) :
    (dot_S1024x3_S3x2048_S1024x2048_1_0_0_1_n_n.rhsIdx i q 1).val = (i 1).val := by
  unfold DotDims.rhsIdx
  rw [dif_neg (show ¬(1 : Fin S3x2048.rank) ∈ dot_S1024x3_S3x2048_S1024x2048_1_0_0_1_n_n.rhsBatch by decide), dif_pos (show (1 : Fin S3x2048.rank) ∈ dot_S1024x3_S3x2048_S1024x2048_1_0_0_1_n_n.rhsNonContracting by decide)]
  rfl

/-- The cross term `a_p · b_k`: the product over the three coordinates into the zero block. -/
theorem cross_apply (l : FVec Ideal S1024x3 .bf16) (r : FVec Ideal S3x2048 .bf16) (p : Fin 1024) (k : Fin 2048) :
    matmul (F := Ideal) dot_S1024x3_S3x2048_S1024x2048_1_0_0_1_n_n none l r (constant (F := Ideal) S1024x2048 .f32 0x00000000#32) (ix2 p k)
      = ∑ d : Fin 3, l (ix2 p d) * r (ix2 d k) := by
  refine (Ideal.matmul_constant_zero_apply dot_S1024x3_S3x2048_S1024x2048_1_0_0_1_n_n none l r (ix2 p k)).trans ?_
  rw [← Equiv.sum_comp (contrEquiv1 dot_S1024x3_S3x2048_S1024x2048_1_0_0_1_n_n 3 rfl rfl).symm]
  refine Finset.sum_congr rfl fun d _ => ?_
  have hd := contrEquiv1_symm_val dot_S1024x3_S3x2048_S1024x2048_1_0_0_1_n_n 3 rfl rfl d
  have el : dot_S1024x3_S3x2048_S1024x2048_1_0_0_1_n_n.lhsIdx (ix2 p k) ((contrEquiv1 dot_S1024x3_S3x2048_S1024x2048_1_0_0_1_n_n 3 rfl rfl).symm d) = ix2 p d := funext fun a => Fin.ext (by
    match a with
    | ⟨0, _⟩ => exact lhs_cross_0 _ _
    | ⟨1, _⟩ => exact (lhs_cross_1 _ _).trans hd)
  have er : dot_S1024x3_S3x2048_S1024x2048_1_0_0_1_n_n.rhsIdx (ix2 p k) ((contrEquiv1 dot_S1024x3_S3x2048_S1024x2048_1_0_0_1_n_n 3 rfl rfl).symm d) = ix2 d k := funext fun a => Fin.ext (by
    match a with
    | ⟨0, _⟩ => exact (rhs_cross_0 _ _).trans hd
    | ⟨1, _⟩ => exact rhs_cross_1 _ _)
  rw [el, er]

theorem lhs_mix_0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
theorem lhs_mix_1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem rhs_mix_0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
theorem rhs_mix_1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- A stretch's features mixed with the weights: the product over the 2048 centres into the zero block. -/
theorem mix_apply (l : FVec Ideal S1024x2048 .bf16) (r : FVec Ideal S64x2048 .bf16) (p : Fin 1024) (q : Fin 64) :
    matmul (F := Ideal) dot_S1024x2048_S64x2048_S1024x64_1_1_0_0_n_n none l r (constant (F := Ideal) S1024x64 .f32 0x00000000#32) (ix2 p q)
      = ∑ k : Fin 2048, l (ix2 p k) * r (ix2 q k) := by
  refine (Ideal.matmul_constant_zero_apply dot_S1024x2048_S64x2048_S1024x64_1_1_0_0_n_n none l r (ix2 p q)).trans ?_
  rw [← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 p q) ((contrEquiv1 dot_S1024x2048_S64x2048_S1024x64_1_1_0_0_n_n 2048 rfl rfl).symm k) = ix2 p k := funext fun a => Fin.ext (by
    match a with
    | ⟨0, _⟩ => exact lhs_mix_0 _ _
    | ⟨1, _⟩ => exact (lhs_mix_1 _ _).trans hk)
  have er : dot_S1024x2048_S64x2048_S1024x64_1_1_0_0_n_n.rhsIdx (ix2 p q) ((contrEquiv1 dot_S1024x2048_S64x2048_S1024x64_1_1_0_0_n_n 2048 rfl rfl).symm k) = ix2 q k := funext fun a => Fin.ext (by
    match a with
    | ⟨0, _⟩ => exact rhs_mix_0 _ _
    | ⟨1, _⟩ => exact (rhs_mix_1 _ _).trans hk)
  rw [el, er]

/-! ## One stretch's contribution, entry by entry over the extended reals -/

/-- The vector square root is taken entry by entry. -/
theorem sqrt_apply {s : Shape} {φ : FTy} (x : FVec Ideal s φ) (i : s.Idx) : sqrt x i = Ideal.sqrt (x i) := rfl

/-- `‖a_p‖²`, the same along the whole row `p`: the row's lane sum, kept as a column and spread over the 2048 centres. -/
theorem sqA_apply (x : FVec Ideal S1024x3 .f32) (p : Fin 1024) (k : Fin 2048) :
    broadcastTo S1024x2048 (shapeCast S1024x1 (multiReduction (F := Ideal) .add [1] S1024 (mulf x x) 0x00000000#32
        reduces_S1024x3_S1024 (.inl rfl) rfl) shapeCasts_S1024_S1024x1) broadcasts_S1024x1_S1024x2048 (ix2 p k)
      = ∑ d : Fin 3, x (ix2 p d) * x (ix2 p d) :=
  (broadcastTo_a1_ab_apply _ broadcasts_S1024x1_S1024x2048 p k).trans
    ((shapeCast_a_a1_apply _ shapeCasts_S1024_S1024x1 p 0).trans (rowSum_apply (mulf x x) p))

/-- `‖b_k‖²`, the same down the whole column `k`: the column's lane sum, kept as a row and spread over the 1024 queries. -/
theorem sqB_apply (x : FVec Ideal S3x2048 .f32) (p : Fin 1024) (k : Fin 2048) :
    broadcastTo S1024x2048 (shapeCast S1x2048 (multiReduction (F := Ideal) .add [0] S2048 (mulf x x) 0x00000000#32
        reduces_S3x2048_S2048 (.inl rfl) rfl) shapeCasts_S2048_S1x2048) broadcasts_S1x2048_S1024x2048 (ix2 p k)
      = ∑ d : Fin 3, x (ix2 d k) * x (ix2 d k) :=
  (broadcastTo_1b_ab_apply _ broadcasts_S1x2048_S1024x2048 p k).trans
    ((shapeCast_a_1a_apply _ shapeCasts_S2048_S1x2048 0 k).trans (colSum_apply (mulf x x) k))

/-- One stretch's contribution at `(p, q)`: the accumulator's entry plus, over the 2048 centres `k` of the stretch, the
    feature `√(max(‖a_p‖² + ‖b_k‖² − 2 a_p·b_k, 0) + 1)` times the weight `w q k`. Nothing is assumed finite here. -/
theorem pay3_term (v3 : Vec Ideal S1024x3 .f32) (v5 : Vec Ideal S3x2048 .f32) (v31 : Vec Ideal S64x2048 .bf16)
    (v34 : Vec Ideal S1024x64 .f32) (p : Fin 1024) (q : Fin 64) :
    k0_pay3 (F := Ideal) v3 v5 v31 v34 (ix2 p q)
      = v34 (ix2 p q) + ∑ k : Fin 2048,
          Ideal.sqrt (max ((∑ d : Fin 3, v3 (ix2 p d) * v3 (ix2 p d)) + (∑ d : Fin 3, v5 (ix2 d k) * v5 (ix2 d k))
                - Ideal.ofBits .f32 0x40000000#32 * ∑ d : Fin 3, v3 (ix2 p d) * v5 (ix2 d k))
              (Ideal.ofBits .f32 0x00000000#32) + Ideal.ofBits .f32 0x3F800000#32) * v31 (ix2 q k) := by
  unfold k0_pay3
  simp only [shapeCast_self]
  refine congrArg (v34 (ix2 p q) + ·) ?_
  refine (mix_apply _ _ p q).trans (Finset.sum_congr rfl fun k _ => ?_)
  refine congrArg (· * v31 (ix2 q k)) ?_
  simp only [truncf_apply, sqrt_apply, addf_apply, maximumf_apply, subf_apply, mulf_apply, broadcast_apply]
  refine congrArg (fun t => Ideal.sqrt (max t (Ideal.ofBits .f32 0x00000000#32) + Ideal.ofBits .f32 0x3F800000#32)) ?_
  refine congrArg₂ (· - ·) (congrArg₂ (· + ·) (sqA_apply v3 p k) (sqB_apply v5 p k)) ?_
  exact congrArg (Ideal.ofBits .f32 0x40000000#32 * ·) (cross_apply _ _ p k)

/-! ## The passage to the real numbers

When the two point blocks and the weight slice hold real numbers, every operation above stays among the real numbers:
sums, products and differences of reals are reals, the maximum with zero is a real, the argument of the square root is
at least one, and the sum over the centres is the coercion of one real sum. -/

/-- The coercion of the larger of two reals is the larger of the coercions. -/
theorem coe_max (x y : ℝ) : ((max x y : ℝ) : EReal) = max (x : EReal) (y : EReal) :=
  EReal.coe_strictMono.monotone.map_max

/-- The feature of two points with real coordinates is the coercion of `phi0`. -/
theorem feature_coe (a b : Fin 3 → ℝ) :
    Ideal.sqrt (max ((∑ d : Fin 3, (a d : EReal) * (a d : EReal)) + (∑ d : Fin 3, (b d : EReal) * (b d : EReal))
          - Ideal.ofBits .f32 0x40000000#32 * ∑ d : Fin 3, (a d : EReal) * (b d : EReal))
        (Ideal.ofBits .f32 0x00000000#32) + Ideal.ofBits .f32 0x3F800000#32)
      = ((Cert.Rbf.phi0 a b : ℝ) : EReal) := by
  rw [two_f32, one_f32, Ideal.ofBits_zero_f32, ← EReal.coe_zero]
  simp only [← EReal.coe_mul, ← RealSums.coe_sum, ← EReal.coe_add, ← EReal.coe_sub, ← coe_max]
  have hpos : ¬ (max ((∑ d : Fin 3, a d * a d) + (∑ d : Fin 3, b d * b d) - 2 * ∑ d : Fin 3, a d * b d) 0 + 1 : ℝ) < 0 :=
    not_lt.mpr (add_nonneg (le_max_right _ _) zero_le_one)
  rw [Ideal.sqrt_coe, if_neg hpos]
  rfl

/-- THE KERNEL BODY'S ARITHMETIC AT AN ENTRY: for real point blocks and a real weight slice, one stretch adds to the
    accumulator's entry `(p, q)` the real number `∑ k, phi0 a_p b_k · w q k` over the stretch's 2048 centres. -/
theorem pay3_apply (v3 : Vec Ideal S1024x3 .f32) (v5 : Vec Ideal S3x2048 .f32) (v31 : Vec Ideal S64x2048 .bf16)
    (v34 : Vec Ideal S1024x64 .f32)
    (h3 : Cert.Rbf.AllReal v3) (h5 : Cert.Rbf.AllReal v5) (h31 : Cert.Rbf.AllReal v31) (p : Fin 1024) (q : Fin 64) :
    k0_pay3 (F := Ideal) v3 v5 v31 v34 (ix2 p q)
      = v34 (ix2 p q) + ((∑ k : Fin 2048, Cert.Rbf.phi0 (fun d => (v3 (ix2 p d)).toReal) (fun d => (v5 (ix2 d k)).toReal)
          * (v31 (ix2 q k)).toReal : ℝ) : EReal) := by
  refine (pay3_term v3 v5 v31 v34 p q).trans (congrArg (v34 (ix2 p q) + ·) ?_)
  rw [RealSums.coe_sum]
  refine Finset.sum_congr rfl fun k _ => ?_
  rw [EReal.coe_mul, ← h31.coe_toReal (ix2 q k)]
  refine congrArg (· * v31 (ix2 q k)) ?_
  rw [← feature_coe]
  simp only [← h3.coe_toReal, ← h5.coe_toReal]

end Cert.Rbf.Payload

end
-- ==== Proof.RbfKernel.lean ====
import proofs.«415032_j36129264894114_3_alg».proof.Proof.Gen.KernelIdeal.Value
import proofs.«415032_j36129264894114_3_alg».proof.Proof.RbfSpec
import proofs.«415032_j36129264894114_3_alg».proof.Proof.LibRealSums
import proofs.«415032_j36129264894114_3_alg».proof.Proof.RbfPieces
import proofs.«415032_j36129264894114_3_alg».proof.Proof.RbfBlocks
import proofs.«415032_j36129264894114_3_alg».proof.Proof.RbfPayload
import Idealize.ShloMosaic.Lib.Pipeline.Value
import Idealize.ShloMosaic.Lib.ValueIdx

/-! # The tiled program's output array is `G` of its arguments

Point `t` of the 16 × 4 grid handles row block `t / 4` (queries `1024 (t / 4) …`) and stretch `t % 4` (centres
`2048 (t % 4) …`). With every argument entry a real number:

* `step_apply`: the body adds to the accumulator entry `(p, q)` the real number
  `∑ k, φ(e a_P, e b_{2048 j + k}) · w q (2048 j + k)` (`contrib`), `P = 1024 (t / 4) + p`, `j = t % 4`, where
  `φ(a, b) = √(max(‖a‖² + ‖b‖² − 2 a·b, 0) + 1)`;
* `acc_apply`: the accumulator is reset at a row block's first stretch, so after point `t` it holds the contributions of
  the stretches `0 … t % 4` added to zero (a fold over the stretches, not an enumeration of the grid);
* `out_apply`: at the last stretch the output block is a copy of the accumulator, and the four contributions add up to the
  layer's output (`sum_contrib`: scaling the points is scaling the distance, and the 8192 centres are the four stretches);
* `flushed_eq`, `cover`, `final`: each last-stretch point writes back its block of `G`, these blocks cover the output
  array (row `r` lies in row block `r / 1024`), so the array ends at `G`. -/

noncomputable section

open Idealize.ShloMosaic Idealize.ShloMosaic.TcCoe Idealize.SL.Sem Idealize.ShloMosaic.ValueIdx
open Idealize.ShloMosaic.Pipeline (Dat)
open scoped BigOperators

namespace Cert.Rbf.Kernel

open Cert.KernelIdeal Cert.KernelIdeal.Gen Cert.Rbf Cert.Rbf.Blocks Idealize.ShloMosaic.RealSums

variable (m : (ℓ : Loc nD τ sig) → Buf (Elt Ideal) ℓ)

/-- Every entry of the four argument arrays of core `c` is a real number. -/
structure RealArgs (c : Dev nD) : Prop where
  hXp : AllReal (aXp m c)
  hX : AllReal (aX m c)
  hW : AllReal (aW m c)
  hE : AllReal (aE m c)

/-- The three blocks point `t` sees, at their literal types. -/
abbrev qblk (c : Dev nD) (t : Fin cfg0.N) : Vec Ideal S1024x3 .f32 := iblk m c 0 t
abbrev cblk (c : Dev nD) (t : Fin cfg0.N) : Vec Ideal S3x2048 .f32 := iblk m c 1 t
abbrev wblk (c : Dev nD) (t : Fin cfg0.N) : Vec Ideal S64x8192 .bf16 := iblk m c 2 t

/-- Query row `1024 u + p` of row block `u`. -/
def row (u : Fin 16) (p : Fin 1024) : Fin 16384 := ⟨1024 * u.val + p.val, by have := u.isLt; have := p.isLt; omega⟩

/-- The contribution of stretch `j` to the output entry of query `P` and feature `q`: the points scaled first. -/
def contrib (c : Dev nD) (P : Fin 16384) (q : Fin 64) (j : Fin 4) : ℝ :=
  ∑ k : Fin 2048, phiPts (eR (aE m c)) (xpR (aXp m c) P) (xR (aX m c) (centre j k)) * wR (aW m c) q (centre j k)

/-- The four stretches' contributions add up to the layer's output. -/
theorem sum_contrib (c : Dev nD) (P : Fin 16384) (q : Fin 64) :
    ∑ j : Fin 4, contrib m c P q j = outR (eR (aE m c)) (xpR (aXp m c)) (xR (aX m c)) (wR (aW m c)) P q := by
  unfold outR contrib
  rw [sum_stretches]
  refine Finset.sum_congr rfl fun j _ => Finset.sum_congr rfl fun k _ => ?_
  rw [phiPts_eq_phiDist]

theorem N64 : cfg0.N = 64 := N_0

/-- The coordinates of point `t`: its row block and its stretch. -/
def rb (t : Fin cfg0.N) : Fin 16 := ⟨t.val / 4, by have : t.val < 64 := lt_of_lt_of_eq t.isLt N64; omega⟩
def st (t : Fin cfg0.N) : Fin 4 := ⟨t.val % 4, Nat.mod_lt _ (by decide)⟩

variable {m}

theorem qblk_real {c : Dev nD} (hR : RealArgs m c) (t : Fin cfg0.N) : AllReal (qblk m c t) := fun i => by
  obtain ⟨p, d, rfl⟩ : ∃ (p : Fin 1024) (d : Fin 3), i = ix2 p d := ⟨i 0, i 1, eq_ix2 i⟩
  rw [show qblk m c t (ix2 p d) = _ from iblk0_apply m c t p d (row (rb t) p) rfl]
  obtain ⟨a, ha⟩ := hR.hXp (ix2 (row (rb t) p) d); obtain ⟨e, he⟩ := hR.hE ix0
  exact ⟨a * e, by rw [ha, he, EReal.coe_mul]⟩

theorem cblk_real {c : Dev nD} (hR : RealArgs m c) (t : Fin cfg0.N) : AllReal (cblk m c t) := fun i => by
  obtain ⟨d, k, rfl⟩ : ∃ (d : Fin 3) (k : Fin 2048), i = ix2 d k := ⟨i 0, i 1, eq_ix2 i⟩
  rw [show cblk m c t (ix2 d k) = _ from iblk1_apply m c t d k (centre (st t) k) rfl]
  obtain ⟨a, ha⟩ := hR.hX (ix2 (centre (st t) k) d); obtain ⟨e, he⟩ := hR.hE ix0
  exact ⟨a * e, by rw [ha, he, EReal.coe_mul]⟩

theorem wsl_real {c : Dev nD} (hR : RealArgs m c) (t : Fin cfg0.N) : AllReal (Pieces.wslice (grid0.coords t) (wblk m c t)) := fun i => by
  obtain ⟨q, k, rfl⟩ : ∃ (q : Fin 64) (k : Fin 2048), i = ix2 q k := ⟨i 0, i 1, eq_ix2 i⟩
  rw [show Pieces.wslice (grid0.coords t) (wblk m c t) (ix2 q k) = _ from wslice_apply m c t q k (centre (st t) k) rfl]
  exact hR.hW _

/-- ONE STEP AT AN ENTRY: at point `t` the accumulator entry `(p, q)` gains the contribution of the point's stretch to the
    output entry of query `1024 (t / 4) + p`. -/
theorem step_apply {c : Dev nD} (hR : RealArgs m c) (t : Fin cfg0.N) (acc : Vec Ideal S1024x64 .f32) (p : Fin 1024) (q : Fin 64) :
    Pieces.step (grid0.coords t) (qblk m c t) (cblk m c t) (wblk m c t) acc (ix2 p q)
      = acc (ix2 p q) + ((contrib m c (row (rb t) p) q (st t) : ℝ) : EReal) := by
  show k0_pay1 (k0_pay3 (qblk m c t) (cblk m c t) (Pieces.wslice (grid0.coords t) (wblk m c t)) acc) (ix2 p q) = _
  rw [Payload.pay1_apply, Payload.pay3_apply _ _ _ _ (qblk_real hR t) (cblk_real hR t) (wsl_real hR t)]
  refine congrArg (fun r : ℝ => acc (ix2 p q) + (r : EReal)) ?_
  unfold contrib
  refine Finset.sum_congr rfl fun k _ => ?_
  have hq : (fun d => (qblk m c t (ix2 p d)).toReal) = fun d => xpR (aXp m c) (row (rb t) p) d * eR (aE m c) := funext fun d => by
    rw [show qblk m c t (ix2 p d) = _ from iblk0_apply m c t p d (row (rb t) p) rfl, EReal.toReal_mul]; rfl
  have hc : (fun d => (cblk m c t (ix2 d k)).toReal) = fun d => xR (aX m c) (centre (st t) k) d * eR (aE m c) := funext fun d => by
    rw [show cblk m c t (ix2 d k) = _ from iblk1_apply m c t d k (centre (st t) k) rfl, EReal.toReal_mul]; rfl
  have hw : (Pieces.wslice (grid0.coords t) (wblk m c t) (ix2 q k)).toReal = wR (aW m c) q (centre (st t) k) := by
    rw [show Pieces.wslice (grid0.coords t) (wblk m c t) (ix2 q k) = _ from wslice_apply m c t q k (centre (st t) k) rfl]; rfl
  rw [hq, hc, hw]
  rfl

/-- The contribution of point `n` to the accumulator, entry by entry, as a function of every natural number (zero past the grid). -/
def contribAt (m : (ℓ : Loc nD τ sig) → Buf (Elt Ideal) ℓ) (c : Dev nD) (n : ℕ) (y : S1024x64.Idx) : EReal :=
  if h : n < cfg0.N then
    ((contrib m c (row (rb ⟨n, h⟩) ⟨(y 0).val, (y 0).isLt⟩) ⟨(y 1).val, (y 1).isLt⟩ (st ⟨n, h⟩) : ℝ) : EReal)
  else 0

/-- WHAT A POINT LEAVES IN THE ACCUMULATOR over what it held: at a first stretch zero plus the point's contribution, at any
    other what it held plus the point's contribution. -/
theorem scAt_apply {c : Dev nD} (hR : RealArgs m c) (n : ℕ) (hb : n < cfg0.N) (acc : Vec Ideal S1024x64 .f32) (y : S1024x64.Idx) :
    Value.scAt0_0 m c n hb acc y = (if n % 4 = 0 then 0 else acc y) + contribAt m c n y := by
  obtain ⟨p, q, rfl⟩ : ∃ (p : Fin 1024) (q : Fin 64), y = ix2 p q := ⟨y 0, y 1, eq_ix2 y⟩
  unfold Value.scAt0_0 contribAt
  rw [dif_pos hb]
  by_cases h0 : n % 4 = 0
  · have h1 : ¬n % 4 = 3 := by omega
    rw [dif_pos h0, dif_neg h1, if_pos h0]
    refine (congrFun (Pieces.sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
    refine (step_apply hR (⟨n, hb⟩ : Fin cfg0.N) _ p q).trans ?_
    rw [Payload.pay2_apply]
  · by_cases h1 : n % 4 = 3
    · rw [dif_neg h0, dif_pos h1, if_neg h0]
      refine (congrFun (Pieces.sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
      exact step_apply hR (⟨n, hb⟩ : Fin cfg0.N) acc p q
    · rw [dif_neg h0, dif_neg h1, if_neg h0]
      refine (congrFun (Pieces.sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
      exact step_apply hR (⟨n, hb⟩ : Fin cfg0.N) acc p q

/-- THE ACCUMULATOR AFTER POINT `t`: the contributions of the stretches `0 … t % 4` of its row block, added to zero. -/
theorem acc_apply {c : Dev nD} (hR : RealArgs m c) (t : Fin cfg0.N) (y : S1024x64.Idx) :
    (outsAt0 m c t.val t.isLt).2 y = 0 + ∑ s ∈ Finset.range (t.val % 4 + 1), contribAt m c (4 * (t.val / 4) + s) y := by
  rw [Value.soutsAt0_0_eq m c t]
  exact Pipeline.accAt_add_apply (fun n h => Value.scAt0_0 m c n h (VS0_0.read (Elt Ideal) VS0_0.junk)) (Value.scAt0_0 m c)
    (fun _ => 0) (contribAt m c) (4 * (t.val / 4)) 3
    (fun h i => by rw [scAt_apply hR, if_pos (by omega)])
    (fun n h acc i hlt hle => by rw [scAt_apply hR, if_neg (by omega)])
    (t.val % 4) (by omega) _ y

/-- THE OUTPUT BLOCK AT A LAST STRETCH is the layer's output for the row block's queries. -/
theorem out_apply {c : Dev nD} (hR : RealArgs m c) (t : Fin cfg0.N) (h3 : t.val % 4 = 3) (p : Fin 1024) (q : Fin 64) :
    (outsAt0 m c t.val t.isLt).1 (ix2 p q)
      = ((outR (eR (aE m c)) (xpR (aXp m c)) (xR (aX m c)) (wR (aW m c)) (row (rb t) p) q : ℝ) : EReal) := by
  have h0 : ¬t.val % 4 = 0 := by omega
  have hN : t.val < 64 := lt_of_lt_of_eq t.isLt N64
  have e12 : (outsAt0 m c t.val t.isLt).1 = (outsAt0 m c t.val t.isLt).2 := by
    rw [outsAt0_C m c t h0 h3]
    dsimp only
    exact (Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).trans
      (Pieces.sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) _).symm
  rw [e12, acc_apply hR t, h3, zero_add, ← sum_contrib, coe_sum, Finset.sum_range]
  refine Finset.sum_congr rfl fun s _ => ?_
  have hs : s.val < 4 := s.isLt
  have hlt : 4 * (t.val / 4) + s.val < cfg0.N := lt_of_lt_of_eq (by omega : 4 * (t.val / 4) + s.val < 64) N64.symm
  unfold contribAt
  rw [dif_pos hlt]
  have e1 : rb ⟨4 * (t.val / 4) + s.val, hlt⟩ = rb t := Fin.ext (by show (4 * (t.val / 4) + s.val) / 4 = t.val / 4; omega)
  have e2 : st ⟨4 * (t.val / 4) + s.val, hlt⟩ = s := Fin.ext (by show (4 * (t.val / 4) + s.val) % 4 = s.val; omega)
  rw [e1, e2]

/-- The output array: `G` of core `c`'s four argument arrays. -/
abbrev Gk (m : (ℓ : Loc nD τ sig) → Buf (Elt Ideal) ℓ) (c : Dev nD) : S16384x64.Idx → EReal := G (aXp m c) (aX m c) (aW m c) (aE m c)

/-- WHAT A LAST-STRETCH POINT WRITES BACK is its block of `G`. -/
theorem flushed_eq {c : Dev nD} (hR : RealArgs m c) (t : Fin cfg0.N) (hf : (cfg0.win 3).flush t = true) :
    (dats m 0 c).flushed 3 t = ((cfg0.win 3).blk t).view.read (Elt Ideal) (Gk m c) := by
  have h3 : t.val % 4 = 3 := (flush0_3 t).mp hf
  rw [Value.flushed3 m c t]
  funext y
  obtain ⟨p, q, rfl⟩ : ∃ (p : Fin 1024) (q : Fin 64), y = ix2 p q := ⟨y 0, y 1, eq_ix2 y⟩
  show (outsAt0 m c t.val t.isLt).1 (ix2 p q) = Gk m c (((cfg0.win 3).blk t).view.emb (ix2 p q))
  rw [out_apply hR t h3 p q]
  refine congrArg₂ (fun (P : Fin 16384) (Q : Fin 64) => ((outR (eR (aE m c)) (xpR (aXp m c)) (xR (aX m c)) (wR (aW m c)) P Q : ℝ) : EReal))
    (Fin.ext ?_) (Fin.ext ?_)
  · show 1024 * (t.val / 4) + p.val = win0_3.index t 0 * 1024 + 1 * p.val
    rw [(idx3 t).1]; omega
  · show q.val = win0_3.index t 1 * 64 + 1 * q.val
    rw [(idx3 t).2]; omega

/-- An index of the output array is in point `t`'s block iff each coordinate is in the block's range on its axis. -/
theorem mem_blk (t : Fin cfg0.N) (i : S16384x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v6).slice (win0_3.rect t)).set ↔ _
  rw [View.set_slice_whole, Rect.mem_set_unit]
  exact Iff.rfl

/-- Every index of the output array lies in the block some last-stretch point writes back: row `r` in that of row block `r / 1024`. -/
theorem cover (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have ht : 4 * ((i 0).val / 1024) + 3 < cfg0.N := by rw [N64]; omega
  refine ⟨⟨4 * ((i 0).val / 1024) + 3, ht⟩, (flush0_3 _).mpr (by show (4 * ((i 0).val / 1024) + 3) % 4 = 3; omega), ?_⟩
  rw [mem_blk]
  intro a
  match a with
  | ⟨0, _⟩ =>
    show win0_3.index ⟨4 * ((i 0).val / 1024) + 3, ht⟩ 0 * 1024 ≤ (i 0).val ∧ (i 0).val < win0_3.index ⟨4 * ((i 0).val / 1024) + 3, ht⟩ 0 * 1024 + 1024
    rw [(idx3 ⟨4 * ((i 0).val / 1024) + 3, ht⟩).1]
    show (4 * ((i 0).val / 1024) + 3) / 4 * 1024 ≤ (i 0).val ∧ (i 0).val < (4 * ((i 0).val / 1024) + 3) / 4 * 1024 + 1024
    omega
  | ⟨1, _⟩ =>
    show win0_3.index ⟨4 * ((i 0).val / 1024) + 3, ht⟩ 1 * 64 ≤ (i 1).val ∧ (i 1).val < win0_3.index ⟨4 * ((i 0).val / 1024) + 3, ht⟩ 1 * 64 + 64
    rw [(idx3 ⟨4 * ((i 0).val / 1024) + 3, ht⟩).2]
    omega

/-- THE OUTPUT ARRAY AFTER THE RUN is `G` of the argument arrays. -/
theorem final {c : Dev nD} (hR : RealArgs m c) : (dats m 0 c).arrAt 3 cfg0.N = Gk m c :=
  (dats m 0 c).arrAt_eq_of_cover 3 (Gk m c) (fun t hf => flushed_eq hR t hf) cover

end Cert.Rbf.Kernel
end
-- ==== Proof.RbfReference.lean ====
import proofs.«415032_j36129264894114_3_alg».proof.Proof.Gen.ReferenceIdeal.Read
import proofs.«415032_j36129264894114_3_alg».proof.Proof.RbfSpec
import proofs.«415032_j36129264894114_3_alg».proof.Proof.LibRealSums

/-! # The reference computes the specification's output array

The reference forms, for every query p and centre n, the squared norms ‖a_p‖² and ‖b_n‖² (sums over the three
coordinates), the inner product a_p · b_n (a contraction over the three coordinates), the expansion
‖a_p‖² + ‖b_n‖² − 2 a_p·b_n clamped at zero, its square root, the product with the scale e, the square of that
plus one, the square root again, and finally contracts over the 8192 centres with the weights.

When every argument entry is a real number, each of these stages is the coercion of a real number: sums, products,
differences and maxima of reals are real, and the extended square root of a non-negative real is the real square root.
Stage by stage the entry at (p, n) is read as the coercion of the matching real expression, and the last contraction is
the coercion of the specification's sum over the centres. -/

noncomputable section

namespace Cert.Rbf.Reference

open Idealize.ShloMosaic Idealize.ShloMosaic.ValueIdx Idealize.ShloMosaic.RealSums
open Cert.ReferenceIdeal Cert.ReferenceIdeal.Read
open scoped BigOperators

/-- The word of 2.0 denotes the real number 2. -/
theorem word_two : Ideal.ofBits .f32 0x40000000#32 = ((2 : ℝ) : EReal) := by
  simp [Ideal.ofBits, Ideal.ieee, -EReal.coe_mul]; norm_num

/-- The word of 1.0 denotes the real number 1. -/
theorem word_one : Ideal.ofBits .f32 0x3F800000#32 = ((1 : ℝ) : EReal) := by
  simp [Ideal.ofBits, Ideal.ieee, -EReal.coe_mul]; norm_num

/-- The maximum of a real number and zero, taken among the extended reals, is the coercion of the real maximum. -/
theorem max_coe_zero (s : ℝ) : max (s : EReal) 0 = ((max s 0 : ℝ) : EReal) := by
  rw [EReal.coe_strictMono.monotone.map_max, EReal.coe_zero]

/-- The extended square root of a non-negative real is the real square root. -/
theorem sqrt_coe_nonneg {r : ℝ} (h : 0 ≤ r) : Ideal.sqrt (r : EReal) = ((Real.sqrt r : ℝ) : EReal) := by
  rw [Ideal.sqrt_coe, if_neg (not_lt.mpr h)]

section
variable (x0 : (⟨S16384x3, .f32⟩ : BufTy).Contents (Elt Ideal)) (x1 : (⟨S8192x3, .f32⟩ : BufTy).Contents (Elt Ideal))
  (x2 : (⟨S64x8192, .f32⟩ : BufTy).Contents (Elt Ideal)) (x3 : (⟨S_, .f32⟩ : BufTy).Contents (Elt Ideal))

/-- ‖a_p‖²: the sum over the three coordinates of the squares of the query point's entries. -/
theorem sqnorm_query (h0 : AllReal x0) (p : Fin 16384) :
    val_main_v1 (F := Ideal) x0 (ix1 p) = ((∑ d, xpR x0 p d * xpR x0 p d : ℝ) : EReal) := by
  have hi : ∀ k : Fin 3, idx_main_v1 (ix1 p) k = ix2 p k := fun k =>
    funext fun a => Fin.ext (by match a with | ⟨0, _⟩ => rfl | ⟨1, _⟩ => rfl)
  have hx : ∀ k : Fin 3, x0 (ix2 p k) = ((xpR x0 p k : ℝ) : EReal) := fun k => h0.coe_toReal _
  rw [val_main_v1_apply, val_main_cst_apply]
  simp only [val_main_v0_apply, hi, hx, Ideal.ofBits_def, Ideal.ofBits_zero_f32, zero_add, Ideal.mulf_def]
  rw [coe_sum]; simp only [EReal.coe_mul]

/-- ‖b_n‖²: the sum over the three coordinates of the squares of the centre's entries. -/
theorem sqnorm_centre (h1 : AllReal x1) (n : Fin 8192) :
    val_main_v4 (F := Ideal) x1 (ix1 n) = ((∑ d, xR x1 n d * xR x1 n d : ℝ) : EReal) := by
  have hi : ∀ k : Fin 3, idx_main_v4 (ix1 n) k = ix2 n k := fun k =>
    funext fun a => Fin.ext (by match a with | ⟨0, _⟩ => rfl | ⟨1, _⟩ => rfl)
  have hx : ∀ k : Fin 3, x1 (ix2 n k) = ((xR x1 n k : ℝ) : EReal) := fun k => h1.coe_toReal _
  rw [val_main_v4_apply, val_main_cst_0_apply]
  simp only [val_main_v3_apply, hi, hx, Ideal.ofBits_def, Ideal.ofBits_zero_f32, zero_add, Ideal.mulf_def]
  rw [coe_sum]; simp only [EReal.coe_mul]

/-- The query's squared norm spread over the centres: the entry at (p, n) does not depend on n. -/
theorem spread_query (h0 : AllReal x0) (p : Fin 16384) (n : Fin 8192) :
    val_main_v6 (F := Ideal) x0 (ix2 p n) = ((∑ d, xpR x0 p d * xpR x0 p d : ℝ) : EReal) := by
  have hi : idx_main_v2 (idx_main_v6 (ix2 p n)) = ix1 p :=
    funext fun a => Fin.ext (by match a with | ⟨0, _⟩ => rfl)
  rw [val_main_v6_apply, val_main_v2_apply, hi, sqnorm_query x0 h0 p]

/-- The centre's squared norm spread over the queries: the entry at (p, n) does not depend on p. -/
theorem spread_centre (h1 : AllReal x1) (p : Fin 16384) (n : Fin 8192) :
    val_main_v7 (F := Ideal) x1 (ix2 p n) = ((∑ d, xR x1 n d * xR x1 n d : ℝ) : EReal) := by
  have hi : idx_main_v5 (idx_main_v7 (ix2 p n)) = ix1 n :=
    funext fun a => Fin.ext (by match a with | ⟨0, _⟩ => rfl)
  rw [val_main_v7_apply, val_main_v5_apply, hi, sqnorm_centre x1 h1 n]

/-- a_p · b_n: the contraction of the query points with the transposed centres over the three coordinates. -/
theorem inner (h0 : AllReal x0) (h1 : AllReal x1) (p : Fin 16384) (n : Fin 8192) :
    val_main_v10 (F := Ideal) x0 x1 (ix2 p n) = ((∑ d, xpR x0 p d * xR x1 n d : ℝ) : EReal) := by
  have hl : ∀ k : Fin 3, lidx_main_v10 (ix2 p n) k = ix2 p k := fun k =>
    funext fun a => Fin.ext (by match a with | ⟨0, _⟩ => rfl | ⟨1, _⟩ => rfl)
  have hr : ∀ k : Fin 3, idx_main_v9 (ridx_main_v10 (ix2 p n) k) = ix2 n k := fun k =>
    funext fun a => Fin.ext (by match a with | ⟨0, _⟩ => rfl | ⟨1, _⟩ => rfl)
  have hx : ∀ k : Fin 3, x0 (ix2 p k) = ((xpR x0 p k : ℝ) : EReal) := fun k => h0.coe_toReal _
  have hy : ∀ k : Fin 3, x1 (ix2 n k) = ((xR x1 n k : ℝ) : EReal) := fun k => h1.coe_toReal _
  rw [val_main_v10_apply]
  simp only [val_main_v9_apply, hl, hr, hx, hy]
  rw [coe_sum]; simp only [EReal.coe_mul]

/-- The expansion ‖a_p‖² + ‖b_n‖² − 2 a_p·b_n of the squared distance. -/
theorem expansion (h0 : AllReal x0) (h1 : AllReal x1) (p : Fin 16384) (n : Fin 8192) :
    val_main_v13 (F := Ideal) x0 x1 (ix2 p n) = ((sqd (xpR x0 p) (xR x1 n) : ℝ) : EReal) := by
  rw [val_main_v13_apply, val_main_v8_apply, val_main_v12_apply, val_main_v11_apply, val_main_cst_1_apply,
    spread_query x0 h0 p n, spread_centre x1 h1 p n, inner x0 x1 h0 h1 p n]
  simp only [Ideal.subf_def, Ideal.addf_def, Ideal.mulf_def, Ideal.ofBits_def, word_two]
  rw [← EReal.coe_add, ← EReal.coe_mul, ← EReal.coe_sub]
  rfl

/-- The expansion clamped at zero, and its square root: the distance between a_p and b_n. -/
theorem distance (h0 : AllReal x0) (h1 : AllReal x1) (p : Fin 16384) (n : Fin 8192) :
    val_main_v16 (F := Ideal) x0 x1 (ix2 p n) = ((Real.sqrt (max (sqd (xpR x0 p) (xR x1 n)) 0) : ℝ) : EReal) := by
  rw [val_main_v16_apply, val_main_v15_apply, val_main_v14_apply, val_main_cst_2_apply, expansion x0 x1 h0 h1 p n]
  simp only [Ideal.hostUnary_sqrt_def, Ideal.maximumf_def, Ideal.ofBits_def, Ideal.ofBits_zero_f32]
  rw [max_coe_zero, sqrt_coe_nonneg (le_max_right _ _)]

/-- The scaled distance e · dist(a_p, b_n). -/
theorem scaled (h0 : AllReal x0) (h1 : AllReal x1) (h3 : AllReal x3) (p : Fin 16384) (n : Fin 8192) :
    val_main_v18 (F := Ideal) x0 x1 x3 (ix2 p n)
      = ((eR x3 * Real.sqrt (max (sqd (xpR x0 p) (xR x1 n)) 0) : ℝ) : EReal) := by
  have he : x3 (idx_main_v17 (ix2 p n)) = ((eR x3 : ℝ) : EReal) := h3.coe_toReal _
  rw [val_main_v18_apply, val_main_v17_apply, he, distance x0 x1 h0 h1 p n]
  simp only [Ideal.mulf_def]
  rw [← EReal.coe_mul]

/-- The multiquadric feature of the scaled distance: the square root of its square plus one. -/
theorem feature (h0 : AllReal x0) (h1 : AllReal x1) (h3 : AllReal x3) (p : Fin 16384) (n : Fin 8192) :
    val_main_v22 (F := Ideal) x0 x1 x3 (ix2 p n) = ((phiDist (eR x3) (xpR x0 p) (xR x1 n) : ℝ) : EReal) := by
  rw [val_main_v22_apply, val_main_v21_apply, val_main_v19_apply, val_main_v20_apply, val_main_cst_3_apply,
    scaled x0 x1 x3 h0 h1 h3 p n]
  simp only [Ideal.hostUnary_sqrt_def, Ideal.addf_def, Ideal.mulf_def, Ideal.ofBits_def, word_one]
  rw [← EReal.coe_mul, ← EReal.coe_add,
    sqrt_coe_nonneg (add_nonneg (mul_self_nonneg _) zero_le_one)]
  rfl

end

/-- THE REFERENCE IS THE SPECIFICATION'S ARRAY: the contraction of the features with the transposed weights over
    the 8192 centres is the coercion of the real sum over the centres. -/
theorem val_eq (x0 : (⟨S16384x3, .f32⟩ : BufTy).Contents (Elt Ideal)) (x1 : (⟨S8192x3, .f32⟩ : BufTy).Contents (Elt Ideal))
    (x2 : (⟨S64x8192, .f32⟩ : BufTy).Contents (Elt Ideal)) (x3 : (⟨S_, .f32⟩ : BufTy).Contents (Elt Ideal))
    (h0 : Cert.Rbf.AllReal x0) (h1 : Cert.Rbf.AllReal x1) (h2 : Cert.Rbf.AllReal x2) (h3 : Cert.Rbf.AllReal x3) :
    Cert.ReferenceIdeal.Read.val_main_v24 (F := Ideal) x0 x1 x2 x3 = Cert.Rbf.G x0 x1 x2 x3 := by
  funext i
  obtain ⟨p, q, rfl⟩ : ∃ (p : Fin 16384) (q : Fin 64), i = ix2 p q := ⟨i 0, i 1, eq_ix2 i⟩
  have hl : ∀ k : Fin 8192, lidx_main_v24 (ix2 p q) k = ix2 p k := fun k =>
    funext fun a => Fin.ext (by match a with | ⟨0, _⟩ => rfl | ⟨1, _⟩ => rfl)
  have hr : ∀ k : Fin 8192, idx_main_v23 (ridx_main_v24 (ix2 p q) k) = ix2 q k := fun k =>
    funext fun a => Fin.ext (by match a with | ⟨0, _⟩ => rfl | ⟨1, _⟩ => rfl)
  have hw : ∀ k : Fin 8192, x2 (ix2 q k) = ((wR x2 q k : ℝ) : EReal) := fun k => h2.coe_toReal _
  rw [val_main_v24_apply]
  simp only [val_main_v23_apply, hl, hr, hw, feature x0 x1 x3 h0 h1 h3 p]
  show _ = ((outR (eR x3) (xpR x0) (xR x1) (wR x2) p q : ℝ) : EReal)
  unfold outR
  rw [coe_sum]; simp only [EReal.coe_mul]

end Cert.Rbf.Reference

end
-- ==== Proof.RbfFinite.lean ====
import proofs.«415032_j36129264894114_3_alg».proof.Pre_finite_inputs
import proofs.«415032_j36129264894114_3_alg».proof.Proof.Gen.Pre_finite_inputs
import Idealize.ShloMosaic.Lib.ReduceAll
import proofs.«415032_j36129264894114_3_alg».proof.Proof.RbfSpec

/-! # From the precondition to real entries

The precondition says, of each of the four argument arrays, that every entry x has |x| < +∞, and joins the four
statements by "and". Among the extended reals |x| = max x (−x) is +∞ exactly at the two infinities, so an entry with
|x| < +∞ is a real number. The conjunction is 1 exactly when each part is 1; a part that is an "and" over all entries
of an array is 1 only if the comparison is 1 at every entry; the part for the scalar is a reduction over no axes, whose
one entry is read the same way. -/

noncomputable section

namespace Cert.Rbf.Finite

open Idealize.ShloMosaic Idealize.ShloMosaic.ValueIdx
open Cert.Pre_finite_inputs Cert.Pre_finite_inputs.Facts

/-- The scalar shape has one index. -/
instance : Subsingleton S_.Idx := ⟨fun _ _ => funext fun d => d.elim0⟩

/-- The word 0x7F800000 denotes +∞. -/
theorem word_inf : Ideal.ofBits .f32 0x7F800000#32 = ⊤ := by simp [Ideal.ofBits, Ideal.ieee]

/-- An extended real whose absolute value is below +∞ is a real number. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max (x : EReal) (-(x : EReal))) (Ideal.ofBits .f32 0x7F800000#32) = 1#1 at h
  rw [word_inf] at h
  induction x using EReal.rec with
  | bot => simp [Ideal.cmp] at h
  | top => simp [Ideal.cmp] at h
  | coe r => exact ⟨r, rfl⟩

/-- Under the precondition every entry of every argument array is a real number. -/
theorem allReal_of_pre [Cert.Pre_finite_inputs.Facts] (a0 : FVec Ideal Cert.Pre_finite_inputs.S16384x3 .f32)
    (a1 : FVec Ideal Cert.Pre_finite_inputs.S8192x3 .f32) (a2 : FVec Ideal Cert.Pre_finite_inputs.S64x8192 .f32)
    (a3 : FVec Ideal Cert.Pre_finite_inputs.S_ .f32)
    (h : Cert.Pre_finite_inputs.fn (F := Ideal) a0 a1 a2 a3 = fun _ => 1#1) :
    Cert.Rbf.AllReal a0 ∧ Cert.Rbf.AllReal a1 ∧ Cert.Rbf.AllReal a2 ∧ Cert.Rbf.AllReal a3 := by
  have h' := congrFun h ix0
  dsimp only [fn, fn_part1] at h'
  obtain ⟨h012, e3⟩ := IntOp.andi_eq_one.1 h'
  obtain ⟨h01, e2⟩ := IntOp.andi_eq_one.1 h012
  obtain ⟨e0, e1⟩ := IntOp.andi_eq_one.1 h01
  refine ⟨fun i => ?_, fun i => ?_, fun i => ?_, fun i => ?_⟩
  · exact real_of_abs_lt_inf (a0 i) (Host.reduce_andi_all _ _ _ _ ix0 e0 i)
  · exact real_of_abs_lt_inf (a1 i) (Host.reduce_andi_all _ _ _ _ ix0 e1 i)
  · exact real_of_abs_lt_inf (a2 i) (Host.reduce_andi_all _ _ _ _ ix0 e2 i)
  · exact real_of_abs_lt_inf (a3 i) (Host.reduce_andi_all _ _ _ _ ix0 e3 i)

end Cert.Rbf.Finite

end
-- ==== Proof.lean ====
/- A multiquadric radial-basis layer, tiled, against its plain form: both compute
     out p q = ∑ n, √((e · dist(a_p, b_n))² + 1) · w q n,   dist(a, b) = √(max(‖a‖² + ‖b‖² − 2 a·b, 0)),
   over 16384 query points a_p and 8192 centres b_n in ℝ³, a scale e and 64 × 8192 weights w.

   The plain form scales the DISTANCE by e. The tiled form scales the POINTS by e before expanding the squared distance
   (on the host, entry by entry), walks a 16 × 4 grid of 1024 queries by 2048 centres, and at each point adds one stretch's
   partial sum into a 1024 × 64 accumulator that is reset to zero at a row block's first stretch and copied to the output
   block at its last.

   Over the extended reals these are the same function of the arguments as soon as every argument entry is a real number,
   which the precondition grants: ‖e a‖² + ‖e b‖² − 2 (e a)·(e b) = e² (‖a‖² + ‖b‖² − 2 a·b) (distributivity, which needs
   finiteness), the non-negative factor e² moves through the clamp at zero, (e √s)² = e² s for s ≥ 0, and a sum over the 8192
   centres is the sum of the four stretches' sums. `Cert.Rbf.G` (RbfSpec) is that function; RbfKernel shows the tiled
   program's output array ends at it (the accumulator's contents by a fold over the stretches, the output blocks covering the
   array), RbfReference that the plain program's result is it, RbfFinite that the precondition makes every entry real.
   The idealization rewrote nothing, so `preserves` has nothing to state. -/
import proofs.«415032_j36129264894114_3_alg».proof.Defs
import proofs.«415032_j36129264894114_3_alg».proof.Proof.Gen.Kernel
import proofs.«415032_j36129264894114_3_alg».proof.Proof.Gen.Kernel.Skeleton
import proofs.«415032_j36129264894114_3_alg».proof.Proof.Gen.Kernel.Launch
import proofs.«415032_j36129264894114_3_alg».proof.Proof.Gen.Kernel.Points
import proofs.«415032_j36129264894114_3_alg».proof.Proof.Gen.Kernel.Frame
import proofs.«415032_j36129264894114_3_alg».proof.Proof.Gen.KernelIdeal
import proofs.«415032_j36129264894114_3_alg».proof.Proof.Gen.KernelIdeal.Skeleton
import proofs.«415032_j36129264894114_3_alg».proof.Proof.Gen.KernelIdeal.Launch
import proofs.«415032_j36129264894114_3_alg».proof.Proof.Gen.KernelIdeal.Points
import proofs.«415032_j36129264894114_3_alg».proof.Proof.Gen.KernelIdeal.Frame
import proofs.«415032_j36129264894114_3_alg».proof.Proof.Gen.ReferenceIdeal
import proofs.«415032_j36129264894114_3_alg».proof.Proof.Gen.Pre_finite_inputs
import proofs.«415032_j36129264894114_3_alg».proof.Proof.Gen.KernelIdeal.Value
import proofs.«415032_j36129264894114_3_alg».proof.Proof.Gen.ReferenceIdeal.Run
import proofs.«415032_j36129264894114_3_alg».proof.Proof.Gen.ReferenceIdeal.Read
import proofs.«415032_j36129264894114_3_alg».proof.Proof.RbfKernel
import proofs.«415032_j36129264894114_3_alg».proof.Proof.RbfReference
import proofs.«415032_j36129264894114_3_alg».proof.Proof.RbfFinite
import Idealize.ShloMosaic.Adequacy
import Idealize.ShloMosaic.Init

noncomputable section

namespace Cert.Proof

open Idealize.ShloMosaic Idealize.SL.Sem

/-- The tiled program as printed runs, and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The plain program is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition every entry of the four argument arrays of every core is a real number. -/
theorem realArgs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Rbf.Kernel.RealArgs m c := by
  obtain ⟨h0, h1, h2, h3⟩ := Cert.Rbf.Finite.allReal_of_pre _ _ _ _ (hpre c)
  exact ⟨h0, h1, h2, h3⟩

/-- Both programs end with the output array at `G` of the arguments: the tiled one by the fold over the stretches and the cover
    of the array by the output blocks, the plain one operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Rbf.Kernel.Gk m c, ?_, ?_⟩
  · exact (θ_run Cert.KernelIdeal.defs _ _).mono
      (fun r h c => ⟨(h c).1.trans (Cert.Rbf.Kernel.final (realArgs m hpre c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2]
    exact Cert.Rbf.Reference.val_eq _ _ _ _ (realArgs m hpre c).hXp (realArgs m hpre c).hX (realArgs m hpre c).hW (realArgs m hpre c).hE

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
